-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x1024 : Shape := ⟨2, ![4096, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S2x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  inb_S1x1024_S1x1024_0_0 : ∀ a, (![0, 0] : Fin 2 → Nat) a + S1x1024.size a ≤ S1x1024.size a
  h_S1x1024 : 0 < S1x1024.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x2048_S2048_d0 : S8192x2048.ReducesTo [0] S2048
  h_S_ : 0 < S_.numel
  bcast_S2048_S1x2048_1 : S2048.BroadcastsInDim S1x2048 (![1] : Fin 1 → Fin S1x2048.rank)

variable [Facts₀]

class Facts : Prop extends Facts₀ where

variable [Facts]
-- ==== Proof.KernelProtocol.lean ====
/-
  The cross-device protocol of the column-sum kernel on the 2 × 2 mesh, and the data the launch needs.

  Device c = (c / 2, c % 2) holds the block of rows 4096 (c / 2) … and columns 1024 (c % 2) … of x. Its partner
  nbr c is the device with the other row coordinate and the same column coordinate; nbr is an involution. The scratch
  buffer has two slots of one row each: slot 0 receives the device's own column sums, slot 1 the partner's.

  One round on every cell. A device's barrier cell has one duty of one unit, paid by its partner's signal, whose payload
  is the partner's slot 1 (free to be written) and that the partner stands at round 0 of its receive cell. Its send
  cell has one duty of the row's credit, paid when its slot 0 has been read, whose payload is slot 0 back holding the
  device's own column sums. Its receive cell has one duty of the row's credit, paid by the partner's copy, whose payload
  is slot 1 holding the partner's column sums. Levels: barrier cells at 1, receive cells at 2, all others at 0; a device
  waits on its barrier owing only a receive credit, and on its send and receive cells owing nothing.
-/
import proofs.«901097_g7700000000001098_dist_sum_ax0_xy_m4096_n1024_v7x_xy2x2_bf16_1_alg».proof.Proof.Gen.Kernel
import proofs.«901097_g7700000000001098_dist_sum_ax0_xy_m4096_n1024_v7x_xy2x2_bf16_1_alg».proof.Proof.Gen.Kernel.Skeleton
import proofs.«901097_g7700000000001098_dist_sum_ax0_xy_m4096_n1024_v7x_xy2x2_bf16_1_alg».proof.Proof.Gen.Kernel.Launch
import proofs.«901097_g7700000000001098_dist_sum_ax0_xy_m4096_n1024_v7x_xy2x2_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.Writes

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st₀ : MemSt nD τ sig (Elt F) := ⟨m, fun _ => 0, ρ⟩

/-! ## The partner -/

/-- The device with the other row coordinate and the same column coordinate. -/
def nbr (c : Dev nD) : Dev nD := ⟨(c.val + 2) % 4, Nat.mod_lt _ (by decide)⟩

theorem nbr_nbr (c : Dev nD) : nbr (nbr c) = c := by revert c; decide
theorem nbr_val (c : Dev nD) : (nbr c).val = (c.val + 2) % 4 := rfl

/-- Both device-id chains of the kernel (the signal's and the copy's) name the partner. -/
theorem dev1_eq (c : Dev nD) : (⟨k0_dev1 c, k0_dev1_lt c⟩ : Dev nD) = nbr c :=
  Fin.ext ((k0_dev1_eq c).trans (by revert c; decide))
theorem dev2_eq (c : Dev nD) : (⟨k0_dev2 c, k0_dev2_lt c⟩ : Dev nD) = nbr c :=
  Fin.ext ((k0_dev2_eq c).trans (by revert c; decide))

def pairing : Dev nD ≃ Dev nD := ⟨nbr, nbr, nbr_nbr, nbr_nbr⟩

/-! ## The memrefs and cells -/

abbrev xM : Memref sig .tc .vmem S4096x1024 .f32 := Memref.whole cc0_stg0_0
abbrev oM : Memref sig .tc .vmem S1x1024 .f32 := Memref.whole cc0_stg1_0
abbrev sM : Memref sig .tc .vmem S2x1x1024 .f32 := Memref.whole cc0_scratch0

/-- The two rows of the scratch buffer. -/
abbrev r0 : Rect S2x1x1024 := Rect.unit (s := S2x1x1024) ![0, 0, 0] S1x1x1024.size inb_S2x1x1024_S1x1x1024_0_0_0
abbrev r1 : Rect S2x1x1024 := Rect.unit (s := S2x1x1024) ![1, 0, 0] S1x1x1024.size inb_S2x1x1024_S1x1x1024_1_0_0

/-- Slot 0 and slot 1 as the copy addresses them: a row, its leading axis dropped. -/
abbrev s0M : Memref sig .tc .vmem S1x1024 .f32 := (sM.slice r0 (fun _ => rfl)).squeeze S1x1024 squeezes_S1x1x1024_S1x1024
abbrev s1M : Memref sig .tc .vmem S1x1024 .f32 := (sM.slice r1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- and the protocol's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (s1M : Memref sig .tc .vmem S1x1024 .f32).view.dmaCredit
theorem N_pos : 0 < N := View.dmaCredit_pos _ (by decide)

/-! ## Contents -/

/-- Device c's block of x, as its staging buffer holds it. -/
def xstg (c : Dev nD) : (cc0_stg0_0 : Ref sig .tc).ty.Contents (Elt F) :=
  (win0_0.blk (0 : Fin 1)).view.read (Elt F) ((st₀ m ρ).mem ((c : Thread nD τ).loc main_arg0))

/-- Device c's column sums, as the row the kernel stores in slot 0. -/
def rowOf (c : Dev nD) : Vec F S1x1x1024 .f32 := k0_pay2 (xstg m ρ c)

/-- The kernel's result on device c: its own column sums plus its partner's. -/
def outAt (c : Dev nD) : (cc0_stg1_0 : Ref sig .tc).ty.Contents (Elt F) := k0_pay1 (rowOf m ρ c) (rowOf m ρ (nbr c))

/-- What a scratch buffer's contents hold in slot 0 and in slot 1, as a load of that row reads them. -/
abbrev slot0 (f : (cc0_scratch0 : Ref sig .tc).ty.Contents (Elt F)) : Vec F S1x1x1024 .f32 :=
  (sM : Memref sig .tc .vmem S2x1x1024 .f32).view.readAt (Elt F) r0.toLoadRect f
abbrev slot1 (f : (cc0_scratch0 : Ref sig .tc).ty.Contents (Elt F)) : Vec F S1x1x1024 .f32 :=
  (sM : Memref sig .tc .vmem S2x1x1024 .f32).view.readAt (Elt F) r1.toLoadRect f

/-- The elements of slot 0, of slot 1. -/
abbrev set0 : Finset (cc0_scratch0 : Ref sig .tc).ty.Idx := (s0M : Memref sig .tc .vmem S1x1024 .f32).view.set
abbrev set1 : Finset (cc0_scratch0 : Ref sig .tc).ty.Idx := (s1M : Memref sig .tc .vmem S1x1024 .f32).view.set

omit [FloatOps F] in
theorem set0_eq : set0 = r0.set := by
  show ((View.whole cc0_scratch0).slice r0 |>.reshape S1x1024 _).set = _
  rw [View.set_reshape, View.set_slice_whole]
omit [FloatOps F] in
theorem set1_eq : set1 = r1.set := by
  show ((View.whole cc0_scratch0).slice r1 |>.reshape S1x1024 _).set = _
  rw [View.set_reshape, View.set_slice_whole]

/-- An element of the scratch buffer is in slot 0 exactly when its leading coordinate is 0; else it is in slot 1. -/
theorem mem_set0 (i : (cc0_scratch0 : Ref sig .tc).ty.Idx) : i ∈ set0 ↔ (i 0).val = 0 := by
  rw [set0_eq, Rect.mem_set_unit]
  constructor
  · intro h; have := h 0; simp at this; omega
  · intro h a
    fin_cases a
    · simp; omega
    · have := (i 1).isLt; simp at this ⊢; omega
    · have := (i 2).isLt; simp at this ⊢; omega
theorem mem_set1 (i : (cc0_scratch0 : Ref sig .tc).ty.Idx) : i ∈ set1 ↔ (i 0).val = 1 := by
  rw [set1_eq, Rect.mem_set_unit]
  constructor
  · intro h; have := h 0; simp at this; omega
  · intro h a
    fin_cases a
    · simp; omega
    · have := (i 1).isLt; simp at this ⊢; omega
    · have := (i 2).isLt; simp at this ⊢; omega

/-- The two slots are the whole buffer. -/
theorem compl_set0 : (Finset.univ \ set0 : Finset (cc0_scratch0 : Ref sig .tc).ty.Idx) = set1 := by
  ext i
  rw [Finset.mem_sdiff, mem_set0, mem_set1]
  have h2 : (i 0).val < 2 := (i 0).isLt
  simp only [Finset.mem_univ, true_and]
  omega

/-- A whole scratch buffer, and its two slots. -/
def scrPts (c : Dev nD) (f : Buf (Elt F) ((sM : Memref sig .tc .vmem S2x1x1024 .f32).view.loc (c : Thread nD τ))) : sProp 𝕄 :=
  (sM : Memref sig .tc .vmem S2x1x1024 .f32).view.loc (c : Thread nD τ) ↦[(sM : Memref sig .tc .vmem S2x1x1024 .f32).view.set]{fullShare} f
def slot0Pts (c : Dev nD) (f : Buf (Elt F) ((s0M : Memref sig .tc .vmem S1x1024 .f32).view.loc (c : Thread nD τ))) : sProp 𝕄 :=
  (s0M : Memref sig .tc .vmem S1x1024 .f32).view.loc (c : Thread nD τ) ↦[(s0M : Memref sig .tc .vmem S1x1024 .f32).view.set]{fullShare} f
def slot1Pts (c : Dev nD) (f : Buf (Elt F) ((s1M : Memref sig .tc .vmem S1x1024 .f32).view.loc (c : Thread nD τ))) : sProp 𝕄 :=
  (s1M : Memref sig .tc .vmem S1x1024 .f32).view.loc (c : Thread nD τ) ↦[(s1M : Memref sig .tc .vmem S1x1024 .f32).view.set]{fullShare} f
def xPts (c : Dev nD) : sProp 𝕄 :=
  (xM : Memref sig .tc .vmem S4096x1024 .f32).view.loc (c : Thread nD τ) ↦[(xM : Memref sig .tc .vmem S4096x1024 .f32).view.set]{fullShare} xstg m ρ c

omit [FloatOps F] in
instance scrPts_storable (c : Dev nD) (f) : BI.Storable (upEmb : UEmb _ 𝕄) (scrPts (F := F) c f) := by unfold scrPts; infer_instance
omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

omit [FloatOps F] in
theorem scr_set : (sM : Memref sig .tc .vmem S2x1x1024 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

omit [FloatOps F] in
/-- A whole scratch buffer is its two slots, at the same contents; -/
theorem scr_split (c : Dev nD) (f : Buf (Elt F) ((c : Thread nD τ).loc cc0_scratch0)) :
    scrPts c f ⊢ (iprop(slot0Pts c f ∗ slot1Pts c f) : sProp 𝕄) := by
  unfold scrPts slot0Pts slot1Pts
  rw [scr_set]
  refine (pointsTo_split_subset (I := set0) (Finset.subset_univ _)).1.trans ?_
  rw [compl_set0]

omit [FloatOps F] in
/-- and two slots at any contents are a whole buffer at some contents. -/
theorem scr_join (c : Dev nD) (f g : Buf (Elt F) ((c : Thread nD τ).loc cc0_scratch0)) :
    iprop(slot0Pts c f ∗ slot1Pts c g) ⊢ (iprop(∃ h, scrPts c h) : sProp 𝕄) := by
  unfold scrPts slot0Pts slot1Pts
  rw [scr_set]
  iintro ⟨H0, H1⟩
  iexists (set0.piecewise f g)
  iapply (pointsTo_join_subset (I := set0) (S := Finset.univ) (Finset.subset_univ _))
  isplitl [H0]; · iexact H0
  rw [compl_set0]; iexact H1

/-! ## The copy's landing -/

omit [FloatOps F] in
/-- What lands in slot 1 of the destination is what slot 0 of the source held: the two slot views re-index one row the
    same way. -/
theorem landing_slot1 (fd fs : (cc0_scratch0 : Ref sig .tc).ty.Contents (Elt F)) :
    slot1 ((s1M : Memref sig .tc .vmem S1x1024 .f32).view.write (Elt F) fd ((s0M : Memref sig .tc .vmem S1x1024 .f32).view.read (Elt F) fs) Finset.univ)
      = slot0 fs := by
  show ((View.whole cc0_scratch0).slice r1).read (Elt F)
      ((((View.whole cc0_scratch0).slice r1).reshape S1x1024 squeezes_S1x1x1024_S1x1024.numel_eq).write (Elt F) fd
        ((((View.whole cc0_scratch0).slice r0).reshape S1x1024 squeezes_S1x1x1024_S1x1024.numel_eq).read (Elt F) fs) Finset.univ)
    = ((View.whole cc0_scratch0).slice r0).read (Elt F) fs
  rw [View.write_reshape_univ, View.read_write_univ]
  funext x
  show ((View.whole cc0_scratch0).slice r0).read (Elt F) fs
      (Shape.reshapeEquiv squeezes_S1x1x1024_S1x1024.numel_eq ((Shape.reshapeEquiv squeezes_S1x1x1024_S1x1024.numel_eq).symm x)) = _
  rw [Equiv.apply_symm_apply]

omit [FloatOps F] in
/-- A store of a row into slot 0 is read back from slot 0. -/
theorem slot0_store (f : (cc0_scratch0 : Ref sig .tc).ty.Contents (Elt F)) (w : Vec F S1x1x1024 .f32) :
    slot0 (((sM : Memref sig .tc .vmem S2x1x1024 .f32).access r0 : View sig .tc _ _ _).write (Elt F) f w Finset.univ) = w :=
  View.read_write_univ _ _

/-! ## The schedule -/

/-- What the partner's signal hands device c: the partner's slot 1 and that the partner stands at round 0 of its
    receive cell (what a copy into that slot needs). -/
def barPay (c : Dev nD) : sProp 𝕄 := iprop((∃ f, slot1Pts (nbr c) f) ∗ reached ER (recvCell (nbr c)) 0)
/-- Slot 0 back, holding the device's own column sums. -/
def sendPay (c : Dev nD) : sProp 𝕄 := iprop(∃ f, ⌜slot0 f = rowOf m ρ c⌝ ∗ slot0Pts c f)
/-- Slot 1 holding the partner's column sums. -/
def recvPay (c : Dev nD) : sProp 𝕄 := iprop(∃ f, ⌜slot1 f = rowOf m ρ (nbr c)⌝ ∗ slot1Pts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a device's three cells: one unit on the barrier, the row's credit on the
    send and on the receive cell. -/
def pairRd : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Bool) :
    BI.Storable (upEmb : UEmb _ 𝕄) ((pairRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (pairRd (F := F) m ρ).duties (barCell c) 0 = {false} := by dsimp only [pairRd]; exact if_pos ⟨rfl, rfl, rfl⟩
theorem duties_send : (pairRd (F := F) m ρ).duties (sendCell c) 0 = {false} := by
  dsimp only [pairRd]; rw [if_neg (fun h => not_bar_send c h.2)]; exact if_pos ⟨rfl, rfl, .inl rfl⟩
theorem duties_recv : (pairRd (F := F) m ρ).duties (recvCell c) 0 = {false} := by
  dsimp only [pairRd]; rw [if_neg (fun h => not_bar_recv c h.2)]; exact if_pos ⟨rfl, rfl, .inr rfl⟩
theorem duties_later (g : GSem nD τ sig) : ∀ r, 1 ≤ r → (pairRd (F := F) m ρ).duties g r = ∅ :=
  fun r hr => by dsimp only [pairRd]; rw [if_neg fun h => by omega, if_neg fun h => by omega]

theorem amount_bar (d : Bool) : (pairRd (F := F) m ρ).amount (barCell c) 0 d = 1 := by dsimp only [pairRd]; exact if_pos rfl
theorem amount_send (d : Bool) : (pairRd (F := F) m ρ).amount (sendCell c) 0 d = N := by dsimp only [pairRd]; exact if_neg send_ne_bar
theorem amount_recv (d : Bool) : (pairRd (F := F) m ρ).amount (recvCell c) 0 d = N := by dsimp only [pairRd]; exact if_neg recv_ne_bar

theorem expect_bar : (pairRd (F := F) m ρ).expect (barCell c) 0 = 1 := by
  unfold Schedule.expect Schedule.amountOf; rw [duties_bar, Finset.sum_singleton, amount_bar]
theorem expect_send : (pairRd (F := F) m ρ).expect (sendCell c) 0 = N := by
  unfold Schedule.expect Schedule.amountOf; rw [duties_send, Finset.sum_singleton, amount_send]
theorem expect_recv : (pairRd (F := F) m ρ).expect (recvCell c) 0 = N := by
  unfold Schedule.expect Schedule.amountOf; rw [duties_recv, Finset.sum_singleton, amount_recv]

theorem payload_bar (d : Bool) : (pairRd (F := F) m ρ).payload (barCell c) 0 d = barPay c := by dsimp only [pairRd]; rw [if_pos rfl]
theorem payload_send (d : Bool) : (pairRd (F := F) m ρ).payload (sendCell c) 0 d = sendPay m ρ c := by
  dsimp only [pairRd]; rw [if_neg send_ne_bar, if_neg send_ne_recv, if_pos rfl]
theorem payload_recv (d : Bool) : (pairRd (F := F) m ρ).payload (recvCell c) 0 d = recvPay m ρ c := by
  dsimp only [pairRd]; rw [if_neg recv_ne_bar, if_pos rfl]

/-- The rest of each cell's round, no duty taken: its one payload. -/
theorem rest_bar : bigSep ((pairRd (F := F) m ρ).duties (barCell c) 0 \ ∅) (fun d => (pairRd (F := F) m ρ).payload (barCell c) 0 d) = barPay c := by
  rw [Finset.sdiff_empty, duties_bar, bigSep_singleton, payload_bar]
theorem rest_send : bigSep ((pairRd (F := F) m ρ).duties (sendCell c) 0 \ ∅) (fun d => (pairRd (F := F) m ρ).payload (sendCell c) 0 d) = sendPay m ρ c := by
  rw [Finset.sdiff_empty, duties_send, bigSep_singleton, payload_send]
theorem rest_recv : bigSep ((pairRd (F := F) m ρ).duties (recvCell c) 0 \ ∅) (fun d => (pairRd (F := F) m ρ).payload (recvCell c) 0 d) = recvPay m ρ c := by
  rw [Finset.sdiff_empty, duties_recv, bigSep_singleton, payload_recv]

end Sched

/-! ## What each device owes at launch; the levels -/

/-- Device c owes its partner's receive cell the row's credit and its partner's barrier cell one unit (the signal,
    paid first, is the last summand). -/
def O₁ (c : Dev nD) : CellTallies nD τ sig Unit := tallyAt (recvCell (nbr c)) () N
def O₀ (c : Dev nD) : CellTallies nD τ sig Unit := O₁ c + tallyAt (barCell (nbr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nbr c) ∨ g = barCell (nbr c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a cell that is no receive cell and no barrier (a staging cell, the send cell) sits below everything a
    device owes at launch, and below nothing once it owes nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names the launch allocated them at: its own three, its
    partner's barrier cell (its signal) and its partner's receive cell (its copy). -/
def invs (K : Dev nD × Fin 3 → ℕ) (c : Dev nD) : sProp 𝕄 :=
  iprop(cellInv ER (pairRd m ρ) (K (c, 0)) (barCell c) ∗ cellInv ER (pairRd m ρ) (K (c, 1)) (sendCell c) ∗ cellInv ER (pairRd m ρ) (K (c, 2)) (recvCell c)
    ∗ cellInv ER (pairRd m ρ) (K (nbr c, 0)) (barCell (nbr c)) ∗ cellInv ER (pairRd m ρ) (K (nbr c, 2)) (recvCell (nbr c)))

instance invs_persistent (K : Dev nD × Fin 3 → ℕ) (c : Dev nD) : BI.Persistent (invs m ρ K c) := by unfold invs; infer_instance

/-- The protocol's ghost state device c starts from: the invariants; its positions at round 0 of its three cells; that
    round 0 is reached on the cells it pays and on its own send and receive cells; the three duty tokens it pays with —
    its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (nbr c)) 0 ∗ reached ER (recvCell (nbr c)) 0 ∗ reached ER (sendCell c) 0 ∗ reached ER (recvCell c) 0
    ∗ dutyTok ER (barCell (nbr c)) 0 false ∗ dutyTok ER (recvCell (nbr c)) 0 false ∗ dutyTok ER (sendCell c) 0 false)

/-- What device c's body starts from: that at some names, its two credit tokens (its barrier's unit, its receive cell's
    credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two own cells at zero, closed (the barrier cell is the runtime's:
    nothing to hand back). -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device c is entered with, and what it leaves. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelProof

end
-- ==== Proof.KernelBody.lean ====
/-
  One device's body, at a symbolic device c.

  The device splits its scratch buffer into its two slots; signals its partner's barrier, handing over its slot 1 and that
  it stands at round 0 of its receive cell; waits on its own barrier and so receives its partner's slot 1; sums its block
  of x over the rows into slot 0; copies slot 0 into its partner's slot 1; waits until slot 0 has been read (slot 0 back,
  still holding its own column sums) and until its own slot 1 has been written (now holding its partner's column sums);
  closes its two own cells; adds the two rows into the result; and puts the scratch buffer together again.
-/
import proofs.«901097_g7700000000001098_dist_sum_ax0_xy_m4096_n1024_v7x_xy2x2_bf16_1_alg».proof.Proof.KernelProtocol

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev rx : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S4096x1024 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz _ f w

omit [FloatOps F] in
/-- A load of row 0 (row 1) of the scratch buffer touches slot 0 (slot 1) only; a store of row 0 likewise. -/
theorem ld0_sub : (sM : Memref sig .tc .vmem S2x1x1024 .f32).view.setOn r0.toLoadRect.set ⊆ set0 := by
  have h : set0 = (sM : Memref sig .tc .vmem S2x1x1024 .f32).view.setOn r0.toLoadRect.set := by
    show ((View.whole cc0_scratch0).slice r0 |>.reshape S1x1024 _).set = _
    rw [View.set_reshape, View.set_slice]; rfl
  rw [h]
omit [FloatOps F] in
theorem ld1_sub : (sM : Memref sig .tc .vmem S2x1x1024 .f32).view.setOn r1.toLoadRect.set ⊆ set1 := by
  have h : set1 = (sM : Memref sig .tc .vmem S2x1x1024 .f32).view.setOn r1.toLoadRect.set := by
    show ((View.whole cc0_scratch0).slice r1 |>.reshape S1x1024 _).set = _
    rw [View.set_reshape, View.set_slice]; rfl
  rw [h]
omit [FloatOps F] in
theorem st0_sub : ((sM : Memref sig .tc .vmem S2x1x1024 .f32).access r0 : View sig .tc _ _ _).setOn Finset.univ ⊆ set0 := by
  have h : set0 = ((sM : Memref sig .tc .vmem S2x1x1024 .f32).access r0 : View sig .tc _ _ _).setOn Finset.univ := by
    show ((View.whole cc0_scratch0).slice r0 |>.reshape S1x1024 _).set = _
    rw [View.set_reshape]; rfl
  rw [h]

/-- The send rule at the pair's cells, the copy addressed to n = nbr c: slot 0 of c, holding c's column sums, into slot 1
    of the partner; slot 0 comes back with the send cell's payload, the partner's slot 1 lands with its receive cell's. -/
theorem wp_send_pair (c n : Dev nD) (hn : n = nbr c) {hsc : (s1M : Memref sig (Dev.tc n : Thread nD τ).2.kind .vmem S1x1024 .f32).view.ref.isScScratch = false}
    {hsrc : (s0M : Memref sig .tc .vmem S1x1024 .f32).view.WordExact} {hdst : (s1M : Memref sig .tc .vmem S1x1024 .f32).view.WordExact}
    {hsem : DmaTarget.Typed .vmem (.dma recvS.sem) (.remote (Dev.tc n : Thread nD τ) (s1M : Memref sig .tc .vmem S1x1024 .f32) (.dma sendS.sem) hsc)}
    {α : Type} {Q : α → sProp 𝕄} {k : PUnit → Prog (TpuEff nD τ sig (Elt F) Λ₀ .tc) α}
    (fs : Buf (Elt F) ((s0M : Memref sig .tc .vmem S1x1024 .f32).view.loc (c : Thread nD τ))) (hfs : slot0 fs = rowOf m ρ c)
    (fn : Buf (Elt F) ((s1M : Memref sig .tc .vmem S1x1024 .f32).view.loc (nbr c : Thread nD τ))) (W : Waits sig Unit) :
    iprop(cellInv ER (pairRd m ρ) (K (c, 1)) (sendCell c) ∗ cellInv ER (pairRd m ρ) (K (nbr c, 2)) (recvCell (nbr c))
        ∗ slot0Pts c fs ∗ slot1Pts (nbr c) fn
        ∗ owes (c : Thread nD τ) (tallyAt (recvCell (nbr c)) () N) W
        ∗ dutyTok ER (sendCell c) 0 false ∗ reached ER (sendCell c) 0
        ∗ dutyTok ER (recvCell (nbr c)) 0 false ∗ reached ER (recvCell (nbr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s0M (.remote (Dev.tc n : Thread nD τ) s1M (.dma sendS.sem) hsc) (.dma recvS.sem) hsrc hdst hsem) k) Q) := by
  subst hn
  unfold slot0Pts slot1Pts
  exact Rounds.wp_send_pointsTo 𝒱₀ ER (pairRd m ρ) (c : Thread nD τ) none (κ₁ := K (c, 1)) (κ₂ := K (nbr c, 2))
    (r₁ := 0) (r₂ := 0) (d₁ := false) (d₂ := false) (fs := fs) (fd := fn)
    (by rw [duties_send]; exact Finset.mem_singleton_self _) (by rw [duties_recv]; exact Finset.mem_singleton_self _)
    () () N rfl (amount_send m ρ c false) (amount_recv m ρ (nbr c) false) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((s1M : Memref sig .tc .vmem S1x1024 .f32).view.write (Elt F) fn ((s0M : Memref sig .tc .vmem S1x1024 .f32).view.read (Elt F) fs) Finset.univ)
      isplitr; · ipureintro; rw [landing_slot1, nbr_nbr]; exact hfs
      iexact H)

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 1600000 in
/-- The body, from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarN, #HIrcvN⟩, HatB, HatS, HatV, #HrBN, #HrVN, #HrS, #HrV, HtBN, HtVN, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer as its two slots
  ihave Hs := (scr_split (F := F) c f0) $$ Hscr
  icases Hs with ⟨Hs0, Hs1⟩
  -- the signal to the partner's barrier: slot 1 goes with it, and that this device stands at round 0 of its receive cell
  iapply (Rounds.wp_signal 𝒱₀ ER (pairRd m ρ) (c : Thread nD τ) none (dst := (nbr c : Thread nD τ)) (κ := K (nbr c, 0))
      (d := false) (by rw [duties_bar]; exact Finset.mem_singleton_self _) ((amount_bar m ρ (nbr c) false).trans (by decide)) () (O₁ c) rfl)
    $$ [HO HtBN Hs1]
  · isplitr; · iexact HIbarN
    isplitl [HO]; · iexact HO
    isplitl [HtBN]; · iexact HtBN
    isplitl [Hs1]
    · rw [payload_bar]; unfold barPay; rw [nbr_nbr]
      isplitl [Hs1]; · iexists f0; iexact Hs1
      iexact HrV
    · iexact HrBN
  iintro HO
  -- the wait on its own barrier, owing the partner's receive credit: the partner's slot 1 comes with it
  unfold O₁
  iapply (Rounds.wp_wait_rest_token 𝒱₀ ER (pairRd m ρ) (c : Thread nD τ) none (κ := K (c, 0))
      (wpE_semWait_eq 𝒱₀ (c : Thread nD τ) none Set.univ) (Set.mem_univ _) () (O := tallyAt (recvCell (nbr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, Hs1N⟩, #HrVN'⟩
  -- the block of x, and the load of row 0 whose value the kernel does not use
  iapply (wp_load 𝒱₀ (c : Thread nD τ) none Set.univ (m := xM) (Finset.subset_univ _)) $$ Hx; iintro Hx
  rw [read_x]
  unfold slot0Pts
  iapply (wp_load 𝒱₀ (c : Thread nD τ) none Set.univ (m := sM) (S := set0) ld0_sub) $$ Hs0; iintro Hs0
  -- the column sums into slot 0
  iapply (wp_store 𝒱₀ (c : Thread nD τ) none Set.univ (m := sM) (r := r0) (Mk := Finset.univ) (S := set0) st0_sub) $$ Hs0; iintro Hs0
  -- the copy of slot 0 into the partner's slot 1
  iapply (wp_send_pair m ρ K c _ (dev2_eq c) _ (slot0_store f0 (k0_pay2 (xstg m ρ c))) fn (insert (SemLoc.reg barS, ()) W)) $$ [Hs0 Hs1N HO HtS HtVN]
  · isplitr; · iexact HIsnd
    isplitr; · iexact HIrcvN
    isplitl [Hs0]; · unfold slot0Pts; iexact Hs0
    isplitl [Hs1N]; · iexact Hs1N
    isplitl [HO]; · iexact HO
    isplitl [HtS]; · iexact HtS
    isplitr; · iexact HrS
    isplitl [HtVN]; · iexact HtVN
    iexact HrVN
  iintro ⟨HcS, HO⟩
  -- the wait on its send cell: slot 0 back, still holding the device's own column sums
  iapply (Rounds.wp_wait_rest_token 𝒱₀ ER (pairRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%fa, %hfa, Hs0⟩
  -- the wait on its receive cell: slot 1 holding the partner's column sums
  iapply (Rounds.wp_wait_rest_token 𝒱₀ ER (pairRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%fb, %hfb, Hs1⟩
  -- the two own cells close: their counters at zero are the device's again
  imod (Rounds.cell_close ER (pairRd m ρ) (Set.mem_univ (K (c, 1))) (fun h => h) (R := 0 + 1) (duties_later m ρ (sendCell c))) $$ [HatS] with HzS
  · isplitr; · iexact HIsnd
    iexact HatS
  imod (Rounds.cell_close ER (pairRd m ρ) (Set.mem_univ (K (c, 2))) (fun h => h) (R := 0 + 1) (duties_later m ρ (recvCell c))) $$ [HatV] with HzV
  · isplitr; · iexact HIrcv
    iexact HatV
  -- the two rows, their sum into the result
  unfold slot0Pts slot1Pts
  iapply (wp_load 𝒱₀ (c : Thread nD τ) none Set.univ (m := sM) (S := set0) ld0_sub) $$ Hs0; iintro Hs0
  iapply (wp_load 𝒱₀ (c : Thread nD τ) none Set.univ (m := sM) (S := set1) ld1_sub) $$ Hs1; iintro Hs1
  rw [show (sM : Memref sig .tc .vmem S2x1x1024 .f32).view.readAt (Elt F) r0.toLoadRect fa = rowOf m ρ c from hfa,
    show (sM : Memref sig .tc .vmem S2x1x1024 .f32).view.readAt (Elt F) r1.toLoadRect fb = rowOf m ρ (nbr c) from hfb]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 HzS HzV]
  · isplitl [Hs0 Hs1]
    · iapply (scr_join (F := F) c fa fb)
      isplitl [Hs0]; · unfold slot0Pts; iexact Hs0
      unfold slot1Pts; iexact Hs1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body obligation of the launch theorem on device c: its precondition names the protocol's ghost state at some
    names, and the body proved above runs from there. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

/-- info: 'Cert.KernelProof.body_obligation' depends on axioms: [propext, Classical.choice, Quot.sound] -/
#guard_msgs in #print axioms body_obligation

end Cert.KernelProof

end
-- ==== Proof.KernelLaunch.lean ====
/-
  The launch of the column-sum kernel on the 2 × 2 mesh: from any memory with every semaphore counter at zero, every
  weakly fair execution of the four devices terminates, and every final state has each device's input block unchanged
  and its result array at the computed contents, provided one device's body meets its obligation.

  The protocol's ghost state is funded once and dealt to the devices: each device's three cells (barrier, send,
  receive) get their invariants, each device keeps its positions at round 0, and the three duty tokens minted on a
  device's own cells go to whoever pays the duty: the barrier's and the receive cell's to the partner, the send cell's
  stays. At launch a device owes its partner's receive cell the row's credit and its partner's barrier cell one unit,
  so each barrier cell starts with one unit of credit and each receive cell with the row's credit.
-/
import proofs.«901097_g7700000000001098_dist_sum_ax0_xy_m4096_n1024_v7x_xy2x2_bf16_1_alg».proof.Proof.KernelProtocol

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout: the kernel's own semaphores, the protocol's cells and duty tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A device's own cells' duty tokens as minted: (device, which cell) — its barrier's, its send's and its receive's
    one duty. -/
abbrev tokOf (cj : Dev nD × Fin 3) : GSem nD τ sig × ℕ × Bool := match cj.2 with
  | 0 => (barCell cj.1, 0, false) | 1 => (sendCell cj.1, 0, false) | 2 => (recvCell cj.1, 0, false)
theorem tokOf_injective : Function.Injective (tokOf : Dev nD × Fin 3 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have h2 := congrArg (fun x : GSem nD τ sig × ℕ × Bool => x.1.2) h
  have : j = j' := by
    fin_cases j <;> fin_cases j' <;> first
      | rfl
      | exact absurd h2 send_ne_bar | exact absurd h2 send_ne_bar.symm
      | exact absurd h2 recv_ne_bar | exact absurd h2 recv_ne_bar.symm
      | exact absurd h2 send_ne_recv | exact absurd h2 recv_ne_send
  subst this; rfl
def pairToks : Finset (GSem nD τ sig × ℕ × Bool) := Finset.univ.map ⟨tokOf, tokOf_injective⟩

def u₀ : UU :=
  (initOf (Pipeline.cells cfgs cellOf_inj) (Pipeline.launchToks cfgs cellOf_inj), initOf pairCells pairToks)

/-- The duty tokens of device c's own cells. -/
def toks (c : Dev nD) : sProp 𝕄 :=
  iprop(dutyTok ER (barCell c) 0 false ∗ dutyTok ER (sendCell c) 0 false ∗ dutyTok ER (recvCell c) 0 false)

/-- What the launch element deals device c. -/
def G (c : Dev nD) : sProp 𝕄 :=
  iprop((bigSep Finset.univ fun k : Fin 3 => roundState ER (pairRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m ρ) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m ρ) pairCells pairToks) $$ HX with ⟨Hst, Hr, Hat, Htok⟩
  imodintro
  ihave Hst' := (Entails.of_eq (hX fun g => roundState ER (pairRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m ρ) (kcell (c, k)) 0)
      ⊢ (|={Set.univ}=> bigSep Finset.univ fun k => iprop(∃ κ : ℕ, cellInv ER (pairRd m ρ) κ (kcell (c, k))) : sProp 𝕄) from by
        rw [← bigSep_sep']
        exact (bigSep_mono fun k _ => (Rounds.body_intro ER (pairRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (pairRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (pairRd m ρ) (K ck) (kcell ck) : sProp 𝕄)) ⊢ cellInv ER (pairRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays — its partner's barrier duty, its
    partner's receive duty, its own send duty. -/
def payToks (c : Dev nD) : sProp 𝕄 :=
  iprop(dutyTok ER (barCell (nbr c)) 0 false ∗ dutyTok ER (recvCell (nbr c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (nbr c, 0)); iexact HI
    iapply (inv_at m ρ K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt to the partner: a barrier's token and a receive cell's token go to the partner, who pays them; the
    send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (pairRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: one unit if d is c's partner. -/
theorem owed_bar (d c : Dev nD) : O₀ d (barCell c) () = if d = nbr c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = nbr c
  · subst h; rw [nbr_nbr, if_pos ⟨rfl, rfl⟩, if_pos rfl]
  · rw [if_neg (fun ⟨h1, _⟩ => h (by rw [← nbr_nbr d]; exact congrArg nbr (bar_eq_iff.mp h1).symm)), if_neg h]

omit [FloatOps F] in
/-- What device d owes device c's receive cell: the row's credit if d is c's partner. -/
theorem owed_recv (d c : Dev nD) : O₀ d (recvCell c) () = if d = nbr c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = nbr c
  · subst h; rw [nbr_nbr, if_pos ⟨rfl, rfl⟩, if_pos rfl]
  · rw [if_neg (fun ⟨h1, _⟩ => h (by rw [← nbr_nbr d]; exact congrArg nbr (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nbr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (nbr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, and given that the
    body on each device meets its obligation: every weakly fair execution of the four kernels — handshaking with the
    partner on the barrier semaphore, then exchanging column sums with it — terminates, and every final state has each
    device's result array at the computed contents and its input block unchanged. -/
theorem run_main (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_pair m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input block after the run holds what it held. -/
theorem finalA_x (c : Dev nD) : finalA m ρ c (0 : Fin 2) = m ((c : Thread nD τ).loc main_arg0) :=
  (dats (F := F) m ρ 0 c).arrAt_in (0 : Fin 2) rfl _

/-- The result array after the run holds the kernel's result: the one write-back writes the whole array. -/
theorem finalA_out (c : Dev nD) : finalA m ρ c (1 : Fin 2) = outAt m ρ c := by
  unfold finalA
  refine ((dats (F := F) m ρ 0 c).arrAt_succ (1 : Fin 2) t₀).trans ?_
  rw [if_pos (flush0_1 t₀)]
  exact Memref.write_access_unit_zero_univ (Elt F) main_v1 (funext fun a => by fin_cases a <;> rfl) _ _ _

/-- info: 'Cert.KernelProof.run_main' depends on axioms: [propext, Classical.choice, Quot.sound] -/
#guard_msgs in #print axioms run_main

end Cert.KernelProof

end
-- ==== Proof.KernelRun.lean ====
/-
  The run of the kernel on the four devices, with what it leaves read as values.

  Every weakly fair execution from a memory with all counters at zero terminates without a fault; afterwards each
  device's result buffer holds its own column sums plus its partner's — both as the kernel's own pure terms of the
  two devices' argument buffers — and every argument buffer holds what it held.
-/
import proofs.«901097_g7700000000001098_dist_sum_ax0_xy_m4096_n1024_v7x_xy2x2_bf16_1_alg».proof.Proof.KernelBody
import proofs.«901097_g7700000000001098_dist_sum_ax0_xy_m4096_n1024_v7x_xy2x2_bf16_1_alg».proof.Proof.KernelLaunch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The argument window has one block, the whole array: the staging buffer holds the device's argument buffer. -/
theorem xstg_eq (c : Dev nD) : xstg m ρ c = m ((c : Thread nD τ).loc main_arg0) := by
  have hz0 : (fun a => (win0_0.index (0 : Fin 1)) a * main_arg0.ty.shape.size a) = fun _ => 0 :=
    funext fun a => by fin_cases a <;> decide
  unfold xstg st₀
  exact Memref.read_access_unit_zero (Elt F) main_arg0 hz0 (fun a => by fin_cases a <;> decide) _

/-- The run: the launch theorem's run at the body proved for every device, the final arrays read off the proof data. -/
theorem run : θ_run defs (onTc (τ := τ) (main (F := F))) ⟨m, fun _ => 0, ρ⟩ (fun r => ∀ c : Dev nD,
    r.2.mem ((c.tc : Thread nD τ).loc main_v1)
        = k0_pay1 (k0_pay2 (m ((c.tc : Thread nD τ).loc main_arg0))) (k0_pay2 (m (((nbr c).tc : Thread nD τ).loc main_arg0)))
      ∧ r.2.mem ((c.tc : Thread nD τ).loc main_arg0) = m ((c.tc : Thread nD τ).loc main_arg0)) :=
  (θ_run defs _ _).mono
    (fun _ h c => ⟨(h c (1 : Fin 2)).trans ((finalA_out m ρ c).trans (by unfold outAt rowOf; rw [xstg_eq, xstg_eq])),
      (h c (0 : Fin 2)).trans (finalA_x m ρ c)⟩)
    (run_main m ρ (body_obligation m ρ))

/-- info: 'Cert.KernelProof.run' depends on axioms: [propext, Classical.choice, Quot.sound] -/
#guard_msgs in #print axioms run

end Cert.KernelProof

end
-- ==== Proof.KernelIdealProtocol.lean ====
/-
  The cross-device protocol of the column-sum kernel on the 2 × 2 mesh, and the data the launch needs.

  Device c = (c / 2, c % 2) holds the block of rows 4096 (c / 2) … and columns 1024 (c % 2) … of x. Its partner
  nbr c is the device with the other row coordinate and the same column coordinate; nbr is an involution. The scratch
  buffer has two slots of one row each: slot 0 receives the device's own column sums, slot 1 the partner's.

  One round on every cell. A device's barrier cell has one duty of one unit, paid by its partner's signal, whose payload
  is the partner's slot 1 (free to be written) and that the partner stands at round 0 of its receive cell. Its send
  cell has one duty of the row's credit, paid when its slot 0 has been read, whose payload is slot 0 back holding the
  device's own column sums. Its receive cell has one duty of the row's credit, paid by the partner's copy, whose payload
  is slot 1 holding the partner's column sums. Levels: barrier cells at 1, receive cells at 2, all others at 0; a device
  waits on its barrier owing only a receive credit, and on its send and receive cells owing nothing.
-/
import proofs.«901097_g7700000000001098_dist_sum_ax0_xy_m4096_n1024_v7x_xy2x2_bf16_1_alg».proof.Proof.Gen.KernelIdeal
import proofs.«901097_g7700000000001098_dist_sum_ax0_xy_m4096_n1024_v7x_xy2x2_bf16_1_alg».proof.Proof.Gen.KernelIdeal.Skeleton
import proofs.«901097_g7700000000001098_dist_sum_ax0_xy_m4096_n1024_v7x_xy2x2_bf16_1_alg».proof.Proof.Gen.KernelIdeal.Launch
import proofs.«901097_g7700000000001098_dist_sum_ax0_xy_m4096_n1024_v7x_xy2x2_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Writes

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st₀ : MemSt nD τ sig (Elt F) := ⟨m, fun _ => 0, ρ⟩

/-! ## The partner -/

/-- The device with the other row coordinate and the same column coordinate. -/
def nbr (c : Dev nD) : Dev nD := ⟨(c.val + 2) % 4, Nat.mod_lt _ (by decide)⟩

theorem nbr_nbr (c : Dev nD) : nbr (nbr c) = c := by revert c; decide
theorem nbr_val (c : Dev nD) : (nbr c).val = (c.val + 2) % 4 := rfl

/-- Both device-id chains of the kernel (the signal's and the copy's) name the partner. -/
theorem dev1_eq (c : Dev nD) : (⟨k0_dev1 c, k0_dev1_lt c⟩ : Dev nD) = nbr c :=
  Fin.ext ((k0_dev1_eq c).trans (by revert c; decide))
theorem dev2_eq (c : Dev nD) : (⟨k0_dev2 c, k0_dev2_lt c⟩ : Dev nD) = nbr c :=
  Fin.ext ((k0_dev2_eq c).trans (by revert c; decide))

def pairing : Dev nD ≃ Dev nD := ⟨nbr, nbr, nbr_nbr, nbr_nbr⟩

/-! ## The memrefs and cells -/

abbrev xM : Memref sig .tc .vmem S4096x1024 .f32 := Memref.whole cc0_stg0_0
abbrev oM : Memref sig .tc .vmem S1x1024 .f32 := Memref.whole cc0_stg1_0
abbrev sM : Memref sig .tc .vmem S2x1x1024 .f32 := Memref.whole cc0_scratch0

/-- The two rows of the scratch buffer. -/
abbrev r0 : Rect S2x1x1024 := Rect.unit (s := S2x1x1024) ![0, 0, 0] S1x1x1024.size inb_S2x1x1024_S1x1x1024_0_0_0
abbrev r1 : Rect S2x1x1024 := Rect.unit (s := S2x1x1024) ![1, 0, 0] S1x1x1024.size inb_S2x1x1024_S1x1x1024_1_0_0

/-- Slot 0 and slot 1 as the copy addresses them: a row, its leading axis dropped. -/
abbrev s0M : Memref sig .tc .vmem S1x1024 .f32 := (sM.slice r0 (fun _ => rfl)).squeeze S1x1024 squeezes_S1x1x1024_S1x1024
abbrev s1M : Memref sig .tc .vmem S1x1024 .f32 := (sM.slice r1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- and the protocol's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (s1M : Memref sig .tc .vmem S1x1024 .f32).view.dmaCredit
theorem N_pos : 0 < N := View.dmaCredit_pos _ (by decide)

/-! ## Contents -/

/-- Device c's block of x, as its staging buffer holds it. -/
def xstg (c : Dev nD) : (cc0_stg0_0 : Ref sig .tc).ty.Contents (Elt F) :=
  (win0_0.blk (0 : Fin 1)).view.read (Elt F) ((st₀ m ρ).mem ((c : Thread nD τ).loc main_arg0))

/-- Device c's column sums, as the row the kernel stores in slot 0. -/
def rowOf (c : Dev nD) : Vec F S1x1x1024 .f32 := k0_pay2 (xstg m ρ c)

/-- The kernel's result on device c: its own column sums plus its partner's. -/
def outAt (c : Dev nD) : (cc0_stg1_0 : Ref sig .tc).ty.Contents (Elt F) := k0_pay1 (rowOf m ρ c) (rowOf m ρ (nbr c))

/-- What a scratch buffer's contents hold in slot 0 and in slot 1, as a load of that row reads them. -/
abbrev slot0 (f : (cc0_scratch0 : Ref sig .tc).ty.Contents (Elt F)) : Vec F S1x1x1024 .f32 :=
  (sM : Memref sig .tc .vmem S2x1x1024 .f32).view.readAt (Elt F) r0.toLoadRect f
abbrev slot1 (f : (cc0_scratch0 : Ref sig .tc).ty.Contents (Elt F)) : Vec F S1x1x1024 .f32 :=
  (sM : Memref sig .tc .vmem S2x1x1024 .f32).view.readAt (Elt F) r1.toLoadRect f

/-- The elements of slot 0, of slot 1. -/
abbrev set0 : Finset (cc0_scratch0 : Ref sig .tc).ty.Idx := (s0M : Memref sig .tc .vmem S1x1024 .f32).view.set
abbrev set1 : Finset (cc0_scratch0 : Ref sig .tc).ty.Idx := (s1M : Memref sig .tc .vmem S1x1024 .f32).view.set

omit [FloatOps F] in
theorem set0_eq : set0 = r0.set := by
  show ((View.whole cc0_scratch0).slice r0 |>.reshape S1x1024 _).set = _
  rw [View.set_reshape, View.set_slice_whole]
omit [FloatOps F] in
theorem set1_eq : set1 = r1.set := by
  show ((View.whole cc0_scratch0).slice r1 |>.reshape S1x1024 _).set = _
  rw [View.set_reshape, View.set_slice_whole]

/-- An element of the scratch buffer is in slot 0 exactly when its leading coordinate is 0; else it is in slot 1. -/
theorem mem_set0 (i : (cc0_scratch0 : Ref sig .tc).ty.Idx) : i ∈ set0 ↔ (i 0).val = 0 := by
  rw [set0_eq, Rect.mem_set_unit]
  constructor
  · intro h; have := h 0; simp at this; omega
  · intro h a
    fin_cases a
    · simp; omega
    · have := (i 1).isLt; simp at this ⊢; omega
    · have := (i 2).isLt; simp at this ⊢; omega
theorem mem_set1 (i : (cc0_scratch0 : Ref sig .tc).ty.Idx) : i ∈ set1 ↔ (i 0).val = 1 := by
  rw [set1_eq, Rect.mem_set_unit]
  constructor
  · intro h; have := h 0; simp at this; omega
  · intro h a
    fin_cases a
    · simp; omega
    · have := (i 1).isLt; simp at this ⊢; omega
    · have := (i 2).isLt; simp at this ⊢; omega

/-- The two slots are the whole buffer. -/
theorem compl_set0 : (Finset.univ \ set0 : Finset (cc0_scratch0 : Ref sig .tc).ty.Idx) = set1 := by
  ext i
  rw [Finset.mem_sdiff, mem_set0, mem_set1]
  have h2 : (i 0).val < 2 := (i 0).isLt
  simp only [Finset.mem_univ, true_and]
  omega

/-- A whole scratch buffer, and its two slots. -/
def scrPts (c : Dev nD) (f : Buf (Elt F) ((sM : Memref sig .tc .vmem S2x1x1024 .f32).view.loc (c : Thread nD τ))) : sProp 𝕄 :=
  (sM : Memref sig .tc .vmem S2x1x1024 .f32).view.loc (c : Thread nD τ) ↦[(sM : Memref sig .tc .vmem S2x1x1024 .f32).view.set]{fullShare} f
def slot0Pts (c : Dev nD) (f : Buf (Elt F) ((s0M : Memref sig .tc .vmem S1x1024 .f32).view.loc (c : Thread nD τ))) : sProp 𝕄 :=
  (s0M : Memref sig .tc .vmem S1x1024 .f32).view.loc (c : Thread nD τ) ↦[(s0M : Memref sig .tc .vmem S1x1024 .f32).view.set]{fullShare} f
def slot1Pts (c : Dev nD) (f : Buf (Elt F) ((s1M : Memref sig .tc .vmem S1x1024 .f32).view.loc (c : Thread nD τ))) : sProp 𝕄 :=
  (s1M : Memref sig .tc .vmem S1x1024 .f32).view.loc (c : Thread nD τ) ↦[(s1M : Memref sig .tc .vmem S1x1024 .f32).view.set]{fullShare} f
def xPts (c : Dev nD) : sProp 𝕄 :=
  (xM : Memref sig .tc .vmem S4096x1024 .f32).view.loc (c : Thread nD τ) ↦[(xM : Memref sig .tc .vmem S4096x1024 .f32).view.set]{fullShare} xstg m ρ c

omit [FloatOps F] in
instance scrPts_storable (c : Dev nD) (f) : BI.Storable (upEmb : UEmb _ 𝕄) (scrPts (F := F) c f) := by unfold scrPts; infer_instance
omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

omit [FloatOps F] in
theorem scr_set : (sM : Memref sig .tc .vmem S2x1x1024 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

omit [FloatOps F] in
/-- A whole scratch buffer is its two slots, at the same contents; -/
theorem scr_split (c : Dev nD) (f : Buf (Elt F) ((c : Thread nD τ).loc cc0_scratch0)) :
    scrPts c f ⊢ (iprop(slot0Pts c f ∗ slot1Pts c f) : sProp 𝕄) := by
  unfold scrPts slot0Pts slot1Pts
  rw [scr_set]
  refine (pointsTo_split_subset (I := set0) (Finset.subset_univ _)).1.trans ?_
  rw [compl_set0]

omit [FloatOps F] in
/-- and two slots at any contents are a whole buffer at some contents. -/
theorem scr_join (c : Dev nD) (f g : Buf (Elt F) ((c : Thread nD τ).loc cc0_scratch0)) :
    iprop(slot0Pts c f ∗ slot1Pts c g) ⊢ (iprop(∃ h, scrPts c h) : sProp 𝕄) := by
  unfold scrPts slot0Pts slot1Pts
  rw [scr_set]
  iintro ⟨H0, H1⟩
  iexists (set0.piecewise f g)
  iapply (pointsTo_join_subset (I := set0) (S := Finset.univ) (Finset.subset_univ _))
  isplitl [H0]; · iexact H0
  rw [compl_set0]; iexact H1

/-! ## The copy's landing -/

omit [FloatOps F] in
/-- What lands in slot 1 of the destination is what slot 0 of the source held: the two slot views re-index one row the
    same way. -/
theorem landing_slot1 (fd fs : (cc0_scratch0 : Ref sig .tc).ty.Contents (Elt F)) :
    slot1 ((s1M : Memref sig .tc .vmem S1x1024 .f32).view.write (Elt F) fd ((s0M : Memref sig .tc .vmem S1x1024 .f32).view.read (Elt F) fs) Finset.univ)
      = slot0 fs := by
  show ((View.whole cc0_scratch0).slice r1).read (Elt F)
      ((((View.whole cc0_scratch0).slice r1).reshape S1x1024 squeezes_S1x1x1024_S1x1024.numel_eq).write (Elt F) fd
        ((((View.whole cc0_scratch0).slice r0).reshape S1x1024 squeezes_S1x1x1024_S1x1024.numel_eq).read (Elt F) fs) Finset.univ)
    = ((View.whole cc0_scratch0).slice r0).read (Elt F) fs
  rw [View.write_reshape_univ, View.read_write_univ]
  funext x
  show ((View.whole cc0_scratch0).slice r0).read (Elt F) fs
      (Shape.reshapeEquiv squeezes_S1x1x1024_S1x1024.numel_eq ((Shape.reshapeEquiv squeezes_S1x1x1024_S1x1024.numel_eq).symm x)) = _
  rw [Equiv.apply_symm_apply]

omit [FloatOps F] in
/-- A store of a row into slot 0 is read back from slot 0. -/
theorem slot0_store (f : (cc0_scratch0 : Ref sig .tc).ty.Contents (Elt F)) (w : Vec F S1x1x1024 .f32) :
    slot0 (((sM : Memref sig .tc .vmem S2x1x1024 .f32).access r0 : View sig .tc _ _ _).write (Elt F) f w Finset.univ) = w :=
  View.read_write_univ _ _

/-! ## The schedule -/

/-- What the partner's signal hands device c: the partner's slot 1 and that the partner stands at round 0 of its
    receive cell (what a copy into that slot needs). -/
def barPay (c : Dev nD) : sProp 𝕄 := iprop((∃ f, slot1Pts (nbr c) f) ∗ reached ER (recvCell (nbr c)) 0)
/-- Slot 0 back, holding the device's own column sums. -/
def sendPay (c : Dev nD) : sProp 𝕄 := iprop(∃ f, ⌜slot0 f = rowOf m ρ c⌝ ∗ slot0Pts c f)
/-- Slot 1 holding the partner's column sums. -/
def recvPay (c : Dev nD) : sProp 𝕄 := iprop(∃ f, ⌜slot1 f = rowOf m ρ (nbr c)⌝ ∗ slot1Pts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a device's three cells: one unit on the barrier, the row's credit on the
    send and on the receive cell. -/
def pairRd : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Bool) :
    BI.Storable (upEmb : UEmb _ 𝕄) ((pairRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (pairRd (F := F) m ρ).duties (barCell c) 0 = {false} := by dsimp only [pairRd]; exact if_pos ⟨rfl, rfl, rfl⟩
theorem duties_send : (pairRd (F := F) m ρ).duties (sendCell c) 0 = {false} := by
  dsimp only [pairRd]; rw [if_neg (fun h => not_bar_send c h.2)]; exact if_pos ⟨rfl, rfl, .inl rfl⟩
theorem duties_recv : (pairRd (F := F) m ρ).duties (recvCell c) 0 = {false} := by
  dsimp only [pairRd]; rw [if_neg (fun h => not_bar_recv c h.2)]; exact if_pos ⟨rfl, rfl, .inr rfl⟩
theorem duties_later (g : GSem nD τ sig) : ∀ r, 1 ≤ r → (pairRd (F := F) m ρ).duties g r = ∅ :=
  fun r hr => by dsimp only [pairRd]; rw [if_neg fun h => by omega, if_neg fun h => by omega]

theorem amount_bar (d : Bool) : (pairRd (F := F) m ρ).amount (barCell c) 0 d = 1 := by dsimp only [pairRd]; exact if_pos rfl
theorem amount_send (d : Bool) : (pairRd (F := F) m ρ).amount (sendCell c) 0 d = N := by dsimp only [pairRd]; exact if_neg send_ne_bar
theorem amount_recv (d : Bool) : (pairRd (F := F) m ρ).amount (recvCell c) 0 d = N := by dsimp only [pairRd]; exact if_neg recv_ne_bar

theorem expect_bar : (pairRd (F := F) m ρ).expect (barCell c) 0 = 1 := by
  unfold Schedule.expect Schedule.amountOf; rw [duties_bar, Finset.sum_singleton, amount_bar]
theorem expect_send : (pairRd (F := F) m ρ).expect (sendCell c) 0 = N := by
  unfold Schedule.expect Schedule.amountOf; rw [duties_send, Finset.sum_singleton, amount_send]
theorem expect_recv : (pairRd (F := F) m ρ).expect (recvCell c) 0 = N := by
  unfold Schedule.expect Schedule.amountOf; rw [duties_recv, Finset.sum_singleton, amount_recv]

theorem payload_bar (d : Bool) : (pairRd (F := F) m ρ).payload (barCell c) 0 d = barPay c := by dsimp only [pairRd]; rw [if_pos rfl]
theorem payload_send (d : Bool) : (pairRd (F := F) m ρ).payload (sendCell c) 0 d = sendPay m ρ c := by
  dsimp only [pairRd]; rw [if_neg send_ne_bar, if_neg send_ne_recv, if_pos rfl]
theorem payload_recv (d : Bool) : (pairRd (F := F) m ρ).payload (recvCell c) 0 d = recvPay m ρ c := by
  dsimp only [pairRd]; rw [if_neg recv_ne_bar, if_pos rfl]

/-- The rest of each cell's round, no duty taken: its one payload. -/
theorem rest_bar : bigSep ((pairRd (F := F) m ρ).duties (barCell c) 0 \ ∅) (fun d => (pairRd (F := F) m ρ).payload (barCell c) 0 d) = barPay c := by
  rw [Finset.sdiff_empty, duties_bar, bigSep_singleton, payload_bar]
theorem rest_send : bigSep ((pairRd (F := F) m ρ).duties (sendCell c) 0 \ ∅) (fun d => (pairRd (F := F) m ρ).payload (sendCell c) 0 d) = sendPay m ρ c := by
  rw [Finset.sdiff_empty, duties_send, bigSep_singleton, payload_send]
theorem rest_recv : bigSep ((pairRd (F := F) m ρ).duties (recvCell c) 0 \ ∅) (fun d => (pairRd (F := F) m ρ).payload (recvCell c) 0 d) = recvPay m ρ c := by
  rw [Finset.sdiff_empty, duties_recv, bigSep_singleton, payload_recv]

end Sched

/-! ## What each device owes at launch; the levels -/

/-- Device c owes its partner's receive cell the row's credit and its partner's barrier cell one unit (the signal,
    paid first, is the last summand). -/
def O₁ (c : Dev nD) : CellTallies nD τ sig Unit := tallyAt (recvCell (nbr c)) () N
def O₀ (c : Dev nD) : CellTallies nD τ sig Unit := O₁ c + tallyAt (barCell (nbr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nbr c) ∨ g = barCell (nbr c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a cell that is no receive cell and no barrier (a staging cell, the send cell) sits below everything a
    device owes at launch, and below nothing once it owes nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names the launch allocated them at: its own three, its
    partner's barrier cell (its signal) and its partner's receive cell (its copy). -/
def invs (K : Dev nD × Fin 3 → ℕ) (c : Dev nD) : sProp 𝕄 :=
  iprop(cellInv ER (pairRd m ρ) (K (c, 0)) (barCell c) ∗ cellInv ER (pairRd m ρ) (K (c, 1)) (sendCell c) ∗ cellInv ER (pairRd m ρ) (K (c, 2)) (recvCell c)
    ∗ cellInv ER (pairRd m ρ) (K (nbr c, 0)) (barCell (nbr c)) ∗ cellInv ER (pairRd m ρ) (K (nbr c, 2)) (recvCell (nbr c)))

instance invs_persistent (K : Dev nD × Fin 3 → ℕ) (c : Dev nD) : BI.Persistent (invs m ρ K c) := by unfold invs; infer_instance

/-- The protocol's ghost state device c starts from: the invariants; its positions at round 0 of its three cells; that
    round 0 is reached on the cells it pays and on its own send and receive cells; the three duty tokens it pays with —
    its partner's barrier duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (nbr c)) 0 ∗ reached ER (recvCell (nbr c)) 0 ∗ reached ER (sendCell c) 0 ∗ reached ER (recvCell c) 0
    ∗ dutyTok ER (barCell (nbr c)) 0 false ∗ dutyTok ER (recvCell (nbr c)) 0 false ∗ dutyTok ER (sendCell c) 0 false)

/-- What device c's body starts from: that at some names, its two credit tokens (its barrier's unit, its receive cell's
    credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the scratch buffer whole again, the two own cells at zero, closed (the barrier cell is the runtime's:
    nothing to hand back). -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device c is entered with, and what it leaves. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealProof

end
-- ==== Proof.KernelIdealBody.lean ====
/-
  One device's body, at a symbolic device c.

  The device splits its scratch buffer into its two slots; signals its partner's barrier, handing over its slot 1 and that
  it stands at round 0 of its receive cell; waits on its own barrier and so receives its partner's slot 1; sums its block
  of x over the rows into slot 0; copies slot 0 into its partner's slot 1; waits until slot 0 has been read (slot 0 back,
  still holding its own column sums) and until its own slot 1 has been written (now holding its partner's column sums);
  closes its two own cells; adds the two rows into the result; and puts the scratch buffer together again.
-/
import proofs.«901097_g7700000000001098_dist_sum_ax0_xy_m4096_n1024_v7x_xy2x2_bf16_1_alg».proof.Proof.KernelIdealProtocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev rx : Rect S4096x1024 := Rect.unit (s := S4096x1024) ![0, 0] S4096x1024.size inb_S4096x1024_S4096x1024_0_0
abbrev ro : Rect S1x1024 := Rect.unit (s := S1x1024) ![0, 0] S1x1024.size inb_S1x1024_S1x1024_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S4096x1024 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz _ f w

omit [FloatOps F] in
/-- A load of row 0 (row 1) of the scratch buffer touches slot 0 (slot 1) only; a store of row 0 likewise. -/
theorem ld0_sub : (sM : Memref sig .tc .vmem S2x1x1024 .f32).view.setOn r0.toLoadRect.set ⊆ set0 := by
  have h : set0 = (sM : Memref sig .tc .vmem S2x1x1024 .f32).view.setOn r0.toLoadRect.set := by
    show ((View.whole cc0_scratch0).slice r0 |>.reshape S1x1024 _).set = _
    rw [View.set_reshape, View.set_slice]; rfl
  rw [h]
omit [FloatOps F] in
theorem ld1_sub : (sM : Memref sig .tc .vmem S2x1x1024 .f32).view.setOn r1.toLoadRect.set ⊆ set1 := by
  have h : set1 = (sM : Memref sig .tc .vmem S2x1x1024 .f32).view.setOn r1.toLoadRect.set := by
    show ((View.whole cc0_scratch0).slice r1 |>.reshape S1x1024 _).set = _
    rw [View.set_reshape, View.set_slice]; rfl
  rw [h]
omit [FloatOps F] in
theorem st0_sub : ((sM : Memref sig .tc .vmem S2x1x1024 .f32).access r0 : View sig .tc _ _ _).setOn Finset.univ ⊆ set0 := by
  have h : set0 = ((sM : Memref sig .tc .vmem S2x1x1024 .f32).access r0 : View sig .tc _ _ _).setOn Finset.univ := by
    show ((View.whole cc0_scratch0).slice r0 |>.reshape S1x1024 _).set = _
    rw [View.set_reshape]; rfl
  rw [h]

/-- The send rule at the pair's cells, the copy addressed to n = nbr c: slot 0 of c, holding c's column sums, into slot 1
    of the partner; slot 0 comes back with the send cell's payload, the partner's slot 1 lands with its receive cell's. -/
theorem wp_send_pair (c n : Dev nD) (hn : n = nbr c) {hsc : (s1M : Memref sig (Dev.tc n : Thread nD τ).2.kind .vmem S1x1024 .f32).view.ref.isScScratch = false}
    {hsrc : (s0M : Memref sig .tc .vmem S1x1024 .f32).view.WordExact} {hdst : (s1M : Memref sig .tc .vmem S1x1024 .f32).view.WordExact}
    {hsem : DmaTarget.Typed .vmem (.dma recvS.sem) (.remote (Dev.tc n : Thread nD τ) (s1M : Memref sig .tc .vmem S1x1024 .f32) (.dma sendS.sem) hsc)}
    {α : Type} {Q : α → sProp 𝕄} {k : PUnit → Prog (TpuEff nD τ sig (Elt F) Λ₀ .tc) α}
    (fs : Buf (Elt F) ((s0M : Memref sig .tc .vmem S1x1024 .f32).view.loc (c : Thread nD τ))) (hfs : slot0 fs = rowOf m ρ c)
    (fn : Buf (Elt F) ((s1M : Memref sig .tc .vmem S1x1024 .f32).view.loc (nbr c : Thread nD τ))) (W : Waits sig Unit) :
    iprop(cellInv ER (pairRd m ρ) (K (c, 1)) (sendCell c) ∗ cellInv ER (pairRd m ρ) (K (nbr c, 2)) (recvCell (nbr c))
        ∗ slot0Pts c fs ∗ slot1Pts (nbr c) fn
        ∗ owes (c : Thread nD τ) (tallyAt (recvCell (nbr c)) () N) W
        ∗ dutyTok ER (sendCell c) 0 false ∗ reached ER (sendCell c) 0
        ∗ dutyTok ER (recvCell (nbr c)) 0 false ∗ reached ER (recvCell (nbr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s0M (.remote (Dev.tc n : Thread nD τ) s1M (.dma sendS.sem) hsc) (.dma recvS.sem) hsrc hdst hsem) k) Q) := by
  subst hn
  unfold slot0Pts slot1Pts
  exact Rounds.wp_send_pointsTo 𝒱₀ ER (pairRd m ρ) (c : Thread nD τ) none (κ₁ := K (c, 1)) (κ₂ := K (nbr c, 2))
    (r₁ := 0) (r₂ := 0) (d₁ := false) (d₂ := false) (fs := fs) (fd := fn)
    (by rw [duties_send]; exact Finset.mem_singleton_self _) (by rw [duties_recv]; exact Finset.mem_singleton_self _)
    () () N rfl (amount_send m ρ c false) (amount_recv m ρ (nbr c) false) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((s1M : Memref sig .tc .vmem S1x1024 .f32).view.write (Elt F) fn ((s0M : Memref sig .tc .vmem S1x1024 .f32).view.read (Elt F) fs) Finset.univ)
      isplitr; · ipureintro; rw [landing_slot1, nbr_nbr]; exact hfs
      iexact H)

def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 1600000 in
/-- The body, from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarN, #HIrcvN⟩, HatB, HatS, HatV, #HrBN, #HrVN, #HrS, #HrV, HtBN, HtVN, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer as its two slots
  ihave Hs := (scr_split (F := F) c f0) $$ Hscr
  icases Hs with ⟨Hs0, Hs1⟩
  -- the signal to the partner's barrier: slot 1 goes with it, and that this device stands at round 0 of its receive cell
  iapply (Rounds.wp_signal 𝒱₀ ER (pairRd m ρ) (c : Thread nD τ) none (dst := (nbr c : Thread nD τ)) (κ := K (nbr c, 0))
      (d := false) (by rw [duties_bar]; exact Finset.mem_singleton_self _) ((amount_bar m ρ (nbr c) false).trans (by decide)) () (O₁ c) rfl)
    $$ [HO HtBN Hs1]
  · isplitr; · iexact HIbarN
    isplitl [HO]; · iexact HO
    isplitl [HtBN]; · iexact HtBN
    isplitl [Hs1]
    · rw [payload_bar]; unfold barPay; rw [nbr_nbr]
      isplitl [Hs1]; · iexists f0; iexact Hs1
      iexact HrV
    · iexact HrBN
  iintro HO
  -- the wait on its own barrier, owing the partner's receive credit: the partner's slot 1 comes with it
  unfold O₁
  iapply (Rounds.wp_wait_rest_token 𝒱₀ ER (pairRd m ρ) (c : Thread nD τ) none (κ := K (c, 0))
      (wpE_semWait_eq 𝒱₀ (c : Thread nD τ) none Set.univ) (Set.mem_univ _) () (O := tallyAt (recvCell (nbr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, Hs1N⟩, #HrVN'⟩
  -- the block of x, and the load of row 0 whose value the kernel does not use
  iapply (wp_load 𝒱₀ (c : Thread nD τ) none Set.univ (m := xM) (Finset.subset_univ _)) $$ Hx; iintro Hx
  rw [read_x]
  unfold slot0Pts
  iapply (wp_load 𝒱₀ (c : Thread nD τ) none Set.univ (m := sM) (S := set0) ld0_sub) $$ Hs0; iintro Hs0
  -- the column sums into slot 0
  iapply (wp_store 𝒱₀ (c : Thread nD τ) none Set.univ (m := sM) (r := r0) (Mk := Finset.univ) (S := set0) st0_sub) $$ Hs0; iintro Hs0
  -- the copy of slot 0 into the partner's slot 1
  iapply (wp_send_pair m ρ K c _ (dev2_eq c) _ (slot0_store f0 (k0_pay2 (xstg m ρ c))) fn (insert (SemLoc.reg barS, ()) W)) $$ [Hs0 Hs1N HO HtS HtVN]
  · isplitr; · iexact HIsnd
    isplitr; · iexact HIrcvN
    isplitl [Hs0]; · unfold slot0Pts; iexact Hs0
    isplitl [Hs1N]; · iexact Hs1N
    isplitl [HO]; · iexact HO
    isplitl [HtS]; · iexact HtS
    isplitr; · iexact HrS
    isplitl [HtVN]; · iexact HtVN
    iexact HrVN
  iintro ⟨HcS, HO⟩
  -- the wait on its send cell: slot 0 back, still holding the device's own column sums
  iapply (Rounds.wp_wait_rest_token 𝒱₀ ER (pairRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m ρ c)) $$ Hpay
  unfold sendPay
  icases Hp with ⟨%fa, %hfa, Hs0⟩
  -- the wait on its receive cell: slot 1 holding the partner's column sums
  iapply (Rounds.wp_wait_rest_token 𝒱₀ ER (pairRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m ρ c)) $$ Hpay
  unfold recvPay
  icases Hp with ⟨%fb, %hfb, Hs1⟩
  -- the two own cells close: their counters at zero are the device's again
  imod (Rounds.cell_close ER (pairRd m ρ) (Set.mem_univ (K (c, 1))) (fun h => h) (R := 0 + 1) (duties_later m ρ (sendCell c))) $$ [HatS] with HzS
  · isplitr; · iexact HIsnd
    iexact HatS
  imod (Rounds.cell_close ER (pairRd m ρ) (Set.mem_univ (K (c, 2))) (fun h => h) (R := 0 + 1) (duties_later m ρ (recvCell c))) $$ [HatV] with HzV
  · isplitr; · iexact HIrcv
    iexact HatV
  -- the two rows, their sum into the result
  unfold slot0Pts slot1Pts
  iapply (wp_load 𝒱₀ (c : Thread nD τ) none Set.univ (m := sM) (S := set0) ld0_sub) $$ Hs0; iintro Hs0
  iapply (wp_load 𝒱₀ (c : Thread nD τ) none Set.univ (m := sM) (S := set1) ld1_sub) $$ Hs1; iintro Hs1
  rw [show (sM : Memref sig .tc .vmem S2x1x1024 .f32).view.readAt (Elt F) r0.toLoadRect fa = rowOf m ρ c from hfa,
    show (sM : Memref sig .tc .vmem S2x1x1024 .f32).view.readAt (Elt F) r1.toLoadRect fb = rowOf m ρ (nbr c) from hfb]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 HzS HzV]
  · isplitl [Hs0 Hs1]
    · iapply (scr_join (F := F) c fa fb)
      isplitl [Hs0]; · unfold slot0Pts; iexact Hs0
      unfold slot1Pts; iexact Hs1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body obligation of the launch theorem on device c: its precondition names the protocol's ghost state at some
    names, and the body proved above runs from there. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

/-- info: 'Cert.KernelIdealProof.body_obligation' depends on axioms: [propext, Classical.choice, Quot.sound] -/
#guard_msgs in #print axioms body_obligation

end Cert.KernelIdealProof

end
-- ==== Proof.KernelIdealLaunch.lean ====
/-
  The launch of the column-sum kernel on the 2 × 2 mesh: from any memory with every semaphore counter at zero, every
  weakly fair execution of the four devices terminates, and every final state has each device's input block unchanged
  and its result array at the computed contents, provided one device's body meets its obligation.

  The protocol's ghost state is funded once and dealt to the devices: each device's three cells (barrier, send,
  receive) get their invariants, each device keeps its positions at round 0, and the three duty tokens minted on a
  device's own cells go to whoever pays the duty: the barrier's and the receive cell's to the partner, the send cell's
  stays. At launch a device owes its partner's receive cell the row's credit and its partner's barrier cell one unit,
  so each barrier cell starts with one unit of credit and each receive cell with the row's credit.
-/
import proofs.«901097_g7700000000001098_dist_sum_ax0_xy_m4096_n1024_v7x_xy2x2_bf16_1_alg».proof.Proof.KernelIdealProtocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout: the kernel's own semaphores, the protocol's cells and duty tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- A device's own cells' duty tokens as minted: (device, which cell) — its barrier's, its send's and its receive's
    one duty. -/
abbrev tokOf (cj : Dev nD × Fin 3) : GSem nD τ sig × ℕ × Bool := match cj.2 with
  | 0 => (barCell cj.1, 0, false) | 1 => (sendCell cj.1, 0, false) | 2 => (recvCell cj.1, 0, false)
theorem tokOf_injective : Function.Injective (tokOf : Dev nD × Fin 3 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have h2 := congrArg (fun x : GSem nD τ sig × ℕ × Bool => x.1.2) h
  have : j = j' := by
    fin_cases j <;> fin_cases j' <;> first
      | rfl
      | exact absurd h2 send_ne_bar | exact absurd h2 send_ne_bar.symm
      | exact absurd h2 recv_ne_bar | exact absurd h2 recv_ne_bar.symm
      | exact absurd h2 send_ne_recv | exact absurd h2 recv_ne_send
  subst this; rfl
def pairToks : Finset (GSem nD τ sig × ℕ × Bool) := Finset.univ.map ⟨tokOf, tokOf_injective⟩

def u₀ : UU :=
  (initOf (Pipeline.cells cfgs cellOf_inj) (Pipeline.launchToks cfgs cellOf_inj), initOf pairCells pairToks)

/-- The duty tokens of device c's own cells. -/
def toks (c : Dev nD) : sProp 𝕄 :=
  iprop(dutyTok ER (barCell c) 0 false ∗ dutyTok ER (sendCell c) 0 false ∗ dutyTok ER (recvCell c) 0 false)

/-- What the launch element deals device c. -/
def G (c : Dev nD) : sProp 𝕄 :=
  iprop((bigSep Finset.univ fun k : Fin 3 => roundState ER (pairRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m ρ) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m ρ) pairCells pairToks) $$ HX with ⟨Hst, Hr, Hat, Htok⟩
  imodintro
  ihave Hst' := (Entails.of_eq (hX fun g => roundState ER (pairRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m ρ) (kcell (c, k)) 0)
      ⊢ (|={Set.univ}=> bigSep Finset.univ fun k => iprop(∃ κ : ℕ, cellInv ER (pairRd m ρ) κ (kcell (c, k))) : sProp 𝕄) from by
        rw [← bigSep_sep']
        exact (bigSep_mono fun k _ => (Rounds.body_intro ER (pairRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (pairRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (pairRd m ρ) (K ck) (kcell ck) : sProp 𝕄)) ⊢ cellInv ER (pairRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays — its partner's barrier duty, its
    partner's receive duty, its own send duty. -/
def payToks (c : Dev nD) : sProp 𝕄 :=
  iprop(dutyTok ER (barCell (nbr c)) 0 false ∗ dutyTok ER (recvCell (nbr c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (nbr c, 0)); iexact HI
    iapply (inv_at m ρ K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt to the partner: a barrier's token and a receive cell's token go to the partner, who pays them; the
    send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (pairRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: one unit if d is c's partner. -/
theorem owed_bar (d c : Dev nD) : O₀ d (barCell c) () = if d = nbr c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = nbr c
  · subst h; rw [nbr_nbr, if_pos ⟨rfl, rfl⟩, if_pos rfl]
  · rw [if_neg (fun ⟨h1, _⟩ => h (by rw [← nbr_nbr d]; exact congrArg nbr (bar_eq_iff.mp h1).symm)), if_neg h]

omit [FloatOps F] in
/-- What device d owes device c's receive cell: the row's credit if d is c's partner. -/
theorem owed_recv (d c : Dev nD) : O₀ d (recvCell c) () = if d = nbr c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = nbr c
  · subst h; rw [nbr_nbr, if_pos ⟨rfl, rfl⟩, if_pos rfl]
  · rw [if_neg (fun ⟨h1, _⟩ => h (by rw [← nbr_nbr d]; exact congrArg nbr (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nbr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (nbr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, and given that the
    body on each device meets its obligation: every weakly fair execution of the four kernels — handshaking with the
    partner on the barrier semaphore, then exchanging column sums with it — terminates, and every final state has each
    device's result array at the computed contents and its input block unchanged. -/
theorem run_main (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_pair m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input block after the run holds what it held. -/
theorem finalA_x (c : Dev nD) : finalA m ρ c (0 : Fin 2) = m ((c : Thread nD τ).loc main_arg0) :=
  (dats (F := F) m ρ 0 c).arrAt_in (0 : Fin 2) rfl _

/-- The result array after the run holds the kernel's result: the one write-back writes the whole array. -/
theorem finalA_out (c : Dev nD) : finalA m ρ c (1 : Fin 2) = outAt m ρ c := by
  unfold finalA
  refine ((dats (F := F) m ρ 0 c).arrAt_succ (1 : Fin 2) t₀).trans ?_
  rw [if_pos (flush0_1 t₀)]
  exact Memref.write_access_unit_zero_univ (Elt F) main_v1 (funext fun a => by fin_cases a <;> rfl) _ _ _

/-- info: 'Cert.KernelIdealProof.run_main' depends on axioms: [propext, Classical.choice, Quot.sound] -/
#guard_msgs in #print axioms run_main

end Cert.KernelIdealProof

end
-- ==== Proof.KernelIdealRun.lean ====
/-
  The run of the kernel on the four devices, with what it leaves read as values.

  Every weakly fair execution from a memory with all counters at zero terminates without a fault; afterwards each
  device's result buffer holds its own column sums plus its partner's — both as the kernel's own pure terms of the
  two devices' argument buffers — and every argument buffer holds what it held.
-/
import proofs.«901097_g7700000000001098_dist_sum_ax0_xy_m4096_n1024_v7x_xy2x2_bf16_1_alg».proof.Proof.KernelIdealBody
import proofs.«901097_g7700000000001098_dist_sum_ax0_xy_m4096_n1024_v7x_xy2x2_bf16_1_alg».proof.Proof.KernelIdealLaunch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The argument window has one block, the whole array: the staging buffer holds the device's argument buffer. -/
theorem xstg_eq (c : Dev nD) : xstg m ρ c = m ((c : Thread nD τ).loc main_arg0) := by
  have hz0 : (fun a => (win0_0.index (0 : Fin 1)) a * main_arg0.ty.shape.size a) = fun _ => 0 :=
    funext fun a => by fin_cases a <;> decide
  unfold xstg st₀
  exact Memref.read_access_unit_zero (Elt F) main_arg0 hz0 (fun a => by fin_cases a <;> decide) _

/-- The run: the launch theorem's run at the body proved for every device, the final arrays read off the proof data. -/
theorem run : θ_run defs (onTc (τ := τ) (main (F := F))) ⟨m, fun _ => 0, ρ⟩ (fun r => ∀ c : Dev nD,
    r.2.mem ((c.tc : Thread nD τ).loc main_v1)
        = k0_pay1 (k0_pay2 (m ((c.tc : Thread nD τ).loc main_arg0))) (k0_pay2 (m (((nbr c).tc : Thread nD τ).loc main_arg0)))
      ∧ r.2.mem ((c.tc : Thread nD τ).loc main_arg0) = m ((c.tc : Thread nD τ).loc main_arg0)) :=
  (θ_run defs _ _).mono
    (fun _ h c => ⟨(h c (1 : Fin 2)).trans ((finalA_out m ρ c).trans (by unfold outAt rowOf; rw [xstg_eq, xstg_eq])),
      (h c (0 : Fin 2)).trans (finalA_x m ρ c)⟩)
    (run_main m ρ (body_obligation m ρ))

/-- info: 'Cert.KernelIdealProof.run' depends on axioms: [propext, Classical.choice, Quot.sound] -/
#guard_msgs in #print axioms run

end Cert.KernelIdealProof

end
-- ==== Proof.HalvesSum.lean ====
/-
  The value law of the distributed column sum on a 2 × 2 mesh.

  The whole input `X` has 8192 rows and 2048 columns. Device `c` of the mesh sits at row-coordinate `c / 2` and
  column-coordinate `c % 2` and holds the block of rows `(c / 2) · 4096 …` and columns `(c % 2) · 1024 …`. It sums its
  block over the 4096 rows, receives the same partial sum from the device `c'` with the other row-coordinate and the
  same column-coordinate, and adds the two. Over the extended reals addition is a commutative monoid, so the sum over
  the 8192 rows of a column is the sum over rows [0, 4096) plus the sum over rows [4096, 8192), in either order: the
  result at lane `l` is the reference's column sum at column `(c % 2) · 1024 + l`, which is block `c % 2` of the
  reference's `[1, 2048]` row.
-/
import proofs.«901097_g7700000000001098_dist_sum_ax0_xy_m4096_n1024_v7x_xy2x2_bf16_1_alg».proof.Proof.Gen.KernelIdeal.Skeleton
import proofs.«901097_g7700000000001098_dist_sum_ax0_xy_m4096_n1024_v7x_xy2x2_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.HalvesSum

open Idealize.ShloMosaic Idealize.ShloMosaic.ValueIdx Idealize.SL.Sem
open scoped BigOperators

/-! ## (a) A sum over 8192 rows is the sum over the first 4096 plus the sum over the last 4096 -/

/-- A sum over `Fin 8192` splits at 4096. -/
theorem sum_halves (f : Fin 8192 → EReal) :
    ∑ k : Fin 8192, f k
      = ∑ r : Fin 4096, f ⟨r.val, by omega⟩ + ∑ r : Fin 4096, f ⟨4096 + r.val, by omega⟩ :=
  Fin.sum_univ_add (a := 4096) (b := 4096) f

/-- The two halves, taken in either order (`p` and `p'` are the two row-coordinates `0` and `1` of the mesh),
    add up to the whole: addition of extended reals is commutative. -/
theorem sum_two_halves (f : Fin 8192 → EReal) (p p' : ℕ) (hp : p + p' = 1) :
    ∑ r : Fin 4096, f ⟨p * 4096 + r.val, by omega⟩ + ∑ r : Fin 4096, f ⟨p' * 4096 + r.val, by omega⟩
      = ∑ k : Fin 8192, f k := by
  rw [sum_halves f]
  obtain ⟨rfl, rfl⟩ | ⟨rfl, rfl⟩ : (p = 0 ∧ p' = 1) ∨ (p = 1 ∧ p' = 0) := by omega
  · refine congrArg₂ (· + ·) (Finset.sum_congr rfl fun r _ => congrArg f (Fin.ext ?_))
      (Finset.sum_congr rfl fun r _ => congrArg f (Fin.ext ?_))
    · show 0 * 4096 + r.val = r.val; omega
    · show 1 * 4096 + r.val = 4096 + r.val; omega
  · rw [add_comm]
    refine congrArg₂ (· + ·) (Finset.sum_congr rfl fun r _ => congrArg f (Fin.ext ?_))
      (Finset.sum_congr rfl fun r _ => congrArg f (Fin.ext ?_))
    · show 0 * 4096 + r.val = r.val; omega
    · show 1 * 4096 + r.val = 4096 + r.val; omega

/-! ## (b) One device's partial sum at a lane -/

open Cert.KernelIdeal Cert.KernelIdeal.Gen in
/-- The per-device partial sum, read at lane `l`: the sum of column `l` of the device's block over its 4096 rows
    (the reduction starts from the zero word, the neutral element, so no initial term is left). -/
theorem pay2_apply (v : FVec Ideal S4096x1024 .f32) (u0 u1 : Fin 1) (l : Fin 1024) :
    k0_pay2 (F := Ideal) v (ix3 u0 u1 l) = ∑ r : Fin 4096, v (ix2 r l) := by
  unfold k0_pay2
  refine (shapeCast_ab_1ab_apply _ _ u0 u1 l).trans ?_
  refine (shapeCast_a_1a_apply _ _ u1 l).trans ?_
  refine (Ideal.multiReduction_add_single _ _ _ _ _ (ix1 l)).trans ?_
  rw [shapeCast_self]
  refine Finset.sum_congr rfl fun r _ => congrArg v (funext fun a => Fin.ext ?_)
  match a with
  | ⟨0, _⟩ => rfl
  | ⟨1, _⟩ => rfl

/-! ## (c) The one-device reference at an index -/

open Cert.ReferenceIdeal Cert.ReferenceIdeal.Read in
/-- The reference `sum(X, axis = 0, keepdims)` at column `m`: the sum of column `m` of `X` over all 8192 rows
    (the initial value is the zero word, which is the extended real `0`). -/
theorem ref_apply (X : (⟨S8192x2048, .f32⟩ : BufTy).Contents (Elt Ideal)) (u : Fin 1) (m : Fin 2048) :
    val_main_v1 (F := Ideal) X (ix2 u m) = ∑ k : Fin 8192, X (ix2 k m) := by
  rw [val_main_v1_apply, val_main_v0_apply, val_main_cst_apply]
  refine (congrArg (· + _) Ideal.ofBits_zero_f32).trans ?_
  refine (zero_add _).trans ?_
  refine Finset.sum_congr rfl fun k _ => congrArg X (funext fun a => Fin.ext ?_)
  match a with
  | ⟨0, _⟩ => rfl
  | ⟨1, _⟩ => rfl

/-! ## The mesh: device `c` of the 2 × 2 mesh sits at row-coordinate `c / 2` and column-coordinate `c % 2` -/

theorem mesh_row (c : Fin 4) : Layout.meshLin [2, 2] c.val [0] = c.val / 2 := by revert c; decide
theorem mesh_col (c : Fin 4) : Layout.meshLin [2, 2] c.val [1] = c.val % 2 := by revert c; decide

/-- Device `c`'s block of the input, at (row `r`, lane `l`): the whole array at row `(c / 2) · 4096 + r`, column
    `(c % 2) · 1024 + l`. -/
theorem blockIn_apply (X : (⟨Cert.ReferenceIdeal.S8192x2048, .f32⟩ : BufTy).Contents (Elt Ideal)) (c : Fin 4)
    (r : Fin 4096) (l : Fin 1024) :
    (Layout.blockN ⟨2, ![4096, 1024]⟩ ⟨2, ![8192, 2048]⟩ (Layout.meshBlock [2, 2] ![[0], [1]] c) X) (ix2 r l)
      = X (ix2 (⟨c.val / 2 * 4096 + r.val, by omega⟩ : Fin 8192) (⟨c.val % 2 * 1024 + l.val, by omega⟩ : Fin 2048)) := by
  rw [Layout.blockN_apply]
  refine congrArg X (funext fun a => Fin.ext ?_)
  match a with
  | ⟨0, _⟩ => show Layout.meshLin [2, 2] c.val [0] * 4096 + r.val = c.val / 2 * 4096 + r.val; rw [mesh_row]
  | ⟨1, _⟩ => show Layout.meshLin [2, 2] c.val [1] * 1024 + l.val = c.val % 2 * 1024 + l.val; rw [mesh_col]

/-- Device `c`'s block of a `[1, 2048]` row, at lane `l`: the row at column `(c % 2) · 1024 + l`. -/
theorem blockOut_apply {α : Type} (Y : (⟨2, ![1, 2048]⟩ : Shape).Idx → α) (c : Fin 4) (u : Fin 1) (l : Fin 1024) :
    (Layout.blockN ⟨2, ![1, 1024]⟩ ⟨2, ![1, 2048]⟩ (Layout.meshBlock [2, 2] ![[], [1]] c) Y) (ix2 u l)
      = Y (ix2 (0 : Fin 1) (⟨c.val % 2 * 1024 + l.val, by omega⟩ : Fin 2048)) := by
  rw [Layout.blockN_apply]
  refine congrArg Y (funext fun a => Fin.ext ?_)
  match a with
  | ⟨0, _⟩ => show 0 * 1 + u.val = 0; omega
  | ⟨1, _⟩ => show Layout.meshLin [2, 2] c.val [1] * 1024 + l.val = c.val % 2 * 1024 + l.val; rw [mesh_col]

/-! ## (d) The value law -/

open Cert.KernelIdeal Cert.KernelIdeal.Gen in
/-- The two devices' partial sums, added, read at lane `l`. -/
theorem pay1_apply (A B : FVec Ideal S1x1x1024 .f32) (u : Fin 1) (l : Fin 1024) :
    k0_pay1 (F := Ideal) A B (ix2 u l) = (show EReal from A (ix3 (0 : Fin 1) u l)) + (show EReal from B (ix3 (0 : Fin 1) u l)) := by
  unfold k0_pay1
  refine (addf_apply _ _ _).trans ?_
  rw [shapeCast_1ab_ab_apply, shapeCast_1ab_ab_apply]

theorem halves_sum (X : (⟨Cert.ReferenceIdeal.S8192x2048, .f32⟩ : BufTy).Contents (Elt Ideal)) (c c' : Fin 4) (hc' : c'.val = (c.val + 2) % 4) :
      Cert.KernelIdeal.Gen.k0_pay1 (F := Ideal)
          (Cert.KernelIdeal.Gen.k0_pay2 (F := Ideal) (Layout.blockN ⟨2, ![4096, 1024]⟩ ⟨2, ![8192, 2048]⟩ (Layout.meshBlock [2, 2] ![[0], [1]] c) X))
          (Cert.KernelIdeal.Gen.k0_pay2 (F := Ideal) (Layout.blockN ⟨2, ![4096, 1024]⟩ ⟨2, ![8192, 2048]⟩ (Layout.meshBlock [2, 2] ![[0], [1]] c') X))
        = Layout.blockN ⟨2, ![1, 1024]⟩ ⟨2, ![1, 2048]⟩ (Layout.meshBlock [2, 2] ![[], [1]] c) (Cert.ReferenceIdeal.Read.val_main_v1 (F := Ideal) X) := by
  funext j
  obtain ⟨u, l, rfl⟩ : ∃ (u : Fin 1) (l : Fin 1024), j = ix2 u l := ⟨j 0, j 1, eq_ix2 j⟩
  have hq : c'.val % 2 = c.val % 2 := by omega
  have hp : c.val / 2 + c'.val / 2 = 1 := by omega
  rw [blockOut_apply, ref_apply, pay1_apply, pay2_apply, pay2_apply]
  refine Eq.trans ?_ (sum_two_halves (fun k => X (ix2 k ⟨c.val % 2 * 1024 + l.val, by omega⟩)) (c.val / 2) (c'.val / 2) hp)
  refine congrArg₂ (· + ·) (Finset.sum_congr rfl fun r _ => blockIn_apply X c r l)
    (Finset.sum_congr rfl fun r _ => (blockIn_apply X c' r l).trans (congrArg X ?_))
  exact congrArg (ix2 _) (Fin.ext (by show c'.val % 2 * 1024 + l.val = c.val % 2 * 1024 + l.val; rw [hq]))

/-- info: 'Cert.HalvesSum.halves_sum' depends on axioms: [propext, Classical.choice, Quot.sound] -/
#guard_msgs in #print axioms Cert.HalvesSum.halves_sum

end Cert.HalvesSum

end
-- ==== Proof.lean ====
/-
  The column sum of a [8192, 2048] array on a 2 × 2 mesh against jnp.sum(x, axis=0, keepdims=True) on one device.

  Device c = (c / 2, c % 2) holds rows 4096 (c / 2) … and columns 1024 (c % 2) … of x. It sums its block over the rows,
  exchanges that row with its partner — the device with the other row coordinate and the same column coordinate — after a
  handshake on the barrier semaphore, and adds the two rows. The two halves of the rows of a column add up to the whole
  column's sum in either order, addition on the extended reals being commutative and associative: so every device of
  column coordinate q ends with block q of the reference's [1, 2048] row. No finiteness is needed.

  The frames of the two kernel programs are their run with the values dropped; the run is the launch theorem's at the
  body proved once for a symbolic device. The reference's frame is its generated run. The ideal pass rewrote nothing, so
  the idealization is the program's own text read over the extended reals.
-/
import proofs.«901097_g7700000000001098_dist_sum_ax0_xy_m4096_n1024_v7x_xy2x2_bf16_1_alg».proof.Defs
import proofs.«901097_g7700000000001098_dist_sum_ax0_xy_m4096_n1024_v7x_xy2x2_bf16_1_alg».proof.Proof.Gen.Kernel
import proofs.«901097_g7700000000001098_dist_sum_ax0_xy_m4096_n1024_v7x_xy2x2_bf16_1_alg».proof.Proof.Gen.Kernel.Skeleton
import proofs.«901097_g7700000000001098_dist_sum_ax0_xy_m4096_n1024_v7x_xy2x2_bf16_1_alg».proof.Proof.Gen.Kernel.Launch
import proofs.«901097_g7700000000001098_dist_sum_ax0_xy_m4096_n1024_v7x_xy2x2_bf16_1_alg».proof.Proof.Gen.Kernel.Points
import proofs.«901097_g7700000000001098_dist_sum_ax0_xy_m4096_n1024_v7x_xy2x2_bf16_1_alg».proof.Proof.Gen.Kernel.Frame
import proofs.«901097_g7700000000001098_dist_sum_ax0_xy_m4096_n1024_v7x_xy2x2_bf16_1_alg».proof.Proof.Gen.KernelIdeal
import proofs.«901097_g7700000000001098_dist_sum_ax0_xy_m4096_n1024_v7x_xy2x2_bf16_1_alg».proof.Proof.Gen.KernelIdeal.Skeleton
import proofs.«901097_g7700000000001098_dist_sum_ax0_xy_m4096_n1024_v7x_xy2x2_bf16_1_alg».proof.Proof.Gen.KernelIdeal.Launch
import proofs.«901097_g7700000000001098_dist_sum_ax0_xy_m4096_n1024_v7x_xy2x2_bf16_1_alg».proof.Proof.Gen.KernelIdeal.Points
import proofs.«901097_g7700000000001098_dist_sum_ax0_xy_m4096_n1024_v7x_xy2x2_bf16_1_alg».proof.Proof.Gen.KernelIdeal.Frame
import proofs.«901097_g7700000000001098_dist_sum_ax0_xy_m4096_n1024_v7x_xy2x2_bf16_1_alg».proof.Proof.Gen.ReferenceIdeal
import proofs.«901097_g7700000000001098_dist_sum_ax0_xy_m4096_n1024_v7x_xy2x2_bf16_1_alg».proof.Proof.Gen.ReferenceIdeal.Run
import proofs.«901097_g7700000000001098_dist_sum_ax0_xy_m4096_n1024_v7x_xy2x2_bf16_1_alg».proof.Proof.Gen.ReferenceIdeal.Read
import proofs.«901097_g7700000000001098_dist_sum_ax0_xy_m4096_n1024_v7x_xy2x2_bf16_1_alg».proof.Proof.Gen.Pre_finite_inputs_Kernel
import proofs.«901097_g7700000000001098_dist_sum_ax0_xy_m4096_n1024_v7x_xy2x2_bf16_1_alg».proof.Proof.Gen.Pre_finite_inputs_ReferenceIdeal
import proofs.«901097_g7700000000001098_dist_sum_ax0_xy_m4096_n1024_v7x_xy2x2_bf16_1_alg».proof.Proof.KernelRun
import proofs.«901097_g7700000000001098_dist_sum_ax0_xy_m4096_n1024_v7x_xy2x2_bf16_1_alg».proof.Proof.KernelIdealRun
import proofs.«901097_g7700000000001098_dist_sum_ax0_xy_m4096_n1024_v7x_xy2x2_bf16_1_alg».proof.Proof.HalvesSum
import Idealize.ShloMosaic.Adequacy
import Idealize.ShloMosaic.Init

noncomputable section

namespace Cert.Proof

open Idealize.ShloMosaic Idealize.SL.Sem

/-- The word-level kernel runs and leaves its arguments as they were: its run, the values dropped. -/
theorem frame_k : Cert.frame_Kernel := fun m g _ =>
  (θ_run (Cert.Kernel.defs (F := Bits)) _ _).mono (fun _ h c => (h c).2) (Cert.KernelProof.run (F := Bits) m g)

/-- The same of the idealized kernel. -/
theorem frame_ki : Cert.frame_KernelIdeal := fun m g _ =>
  (θ_run (Cert.KernelIdeal.defs (F := Ideal)) _ _).mono (fun _ h c => (h c).2) (Cert.KernelIdealProof.run (F := Ideal) m g)

/-- The reference has no kernel: its frame is its run with the result dropped. -/
theorem frame_ri : Cert.frame_ReferenceIdeal := fun m g _ =>
  (θ_run (Cert.ReferenceIdeal.defs (F := Ideal)) _ _).mono (fun _ h c => (h c).2) (Cert.ReferenceIdeal.Value.run (F := Ideal) m g)

/-- Over the extended reals device c ends with its own column sums plus its partner's, of blocks (c / 2, c % 2) and
    (1 - c / 2, c % 2) of the reference's whole array: block c % 2 of the whole array's column sums. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdealProof.run (F := Ideal) m g)
    rw [hagree c, hagree (Cert.KernelIdealProof.nbr c)]
    exact Cert.HalvesSum.halves_sum _ c (Cert.KernelIdealProof.nbr c) (Cert.KernelIdealProof.nbr_val c)
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
